-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x64x256x256 : Shape := ⟨5, ![2, 4, 64, 256, 256]⟩
abbrev S_ : Shape := ⟨0, ![]⟩

class Facts : Prop where
  bcast_S_S2x4x64x256x256 : S_.BroadcastsInDim S2x4x64x256x256 (![] : Fin 0 → Fin S2x4x64x256x256.rank)
  reducesTo_S2x4x64x256x256_S_d0_1_2_3_4 : S2x4x64x256x256.ReducesTo [0, 1, 2, 3, 4] S_
  h_S_ : 0 < S_.numel

variable [Facts]

def fn {F : FTy → Type} [FloatOps F] (main_arg0 : FVec F S2x4x64x256x256 .f32) (main_arg1 : FVec F S2x4x64x256x256 .f32) : IVec S_ 1 :=
  let main_v0 : FVec F S2x4x64x256x256 .f32 := Host.absf main_arg0
  let main_cst : FVec F S_ .f32 := constant S_ .f32 0x7F800000#32
  let main_v1 : FVec F S2x4x64x256x256 .f32 := broadcastInDim S2x4x64x256x256 ![] bcast_S_S2x4x64x256x256 main_cst
  let main_v2 : IVec S2x4x64x256x256 1 := cmpf .olt main_v0 main_v1
  let main_c : IVec S_ 1 := constantI S_ 1 1#1
  let main_v3 : IVec S_ 1 := (fun x v => Host.reduce IntOp.andi x v reducesTo_S2x4x64x256x256_S_d0_1_2_3_4 h_S_) main_v2 main_c
  let main_v4 : FVec F S2x4x64x256x256 .f32 := Host.absf main_arg1
  let main_cst_0 : FVec F S_ .f32 := constant S_ .f32 0x7F800000#32
  let main_v5 : FVec F S2x4x64x256x256 .f32 := broadcastInDim S2x4x64x256x256 ![] bcast_S_S2x4x64x256x256 main_cst_0
  let main_v6 : IVec S2x4x64x256x256 1 := cmpf .olt main_v4 main_v5
  let main_c_1 : IVec S_ 1 := constantI S_ 1 1#1
  let main_v7 : IVec S_ 1 := (fun x v => Host.reduce IntOp.andi x v reducesTo_S2x4x64x256x256_S_d0_1_2_3_4 h_S_) main_v6 main_c_1
  let main_v8 : IVec S_ 1 := andi main_v3 main_v7
  main_v8
-- ==== Kernel.lean ====
abbrev S2x4x64x256x256 : Shape := ⟨5, ![2, 4, 64, 256, 256]⟩
abbrev S512x65536 : Shape := ⟨2, ![512, 65536]⟩
abbrev S512x128 : Shape := ⟨2, ![512, 128]⟩
abbrev S32x65536 : Shape := ⟨2, ![32, 65536]⟩
abbrev S32x128 : Shape := ⟨2, ![32, 128]⟩
abbrev S32 : Shape := ⟨1, ![32]⟩
abbrev S32x1 : Shape := ⟨2, ![32, 1]⟩
abbrev S512x1 : Shape := ⟨2, ![512, 1]⟩
abbrev S512 : Shape := ⟨1, ![512]⟩
abbrev S2x4x64 : Shape := ⟨3, ![2, 4, 64]⟩
abbrev S_ : Shape := ⟨0, ![]⟩
abbrev S2x4 : Shape := ⟨2, ![2, 4]⟩

abbrev nBuf : Space → Nat
  | .hbm => 45
  | .vmem => 12
  | .smem => 0
  | _ => 0

abbrev bufTy : (tb : Table) → Fin (tcTables nBuf tb) → BufTy
  | .hbm, ⟨0, _⟩ => ⟨S2x4x64x256x256, .f32⟩
  | .hbm, ⟨1, _⟩ => ⟨S2x4x64x256x256, .f32⟩
  | .hbm, ⟨2, _⟩ => ⟨S512x65536, .f32⟩
  | .hbm, ⟨3, _⟩ => ⟨S512x65536, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x1, .f32⟩
  | .hbm, ⟨9, _⟩ => ⟨S512, .f32⟩
  | .hbm, ⟨10, _⟩ => ⟨S2x4x64, .f32⟩
  | .hbm, ⟨11, _⟩ => ⟨S512x1, .f32⟩
  | .hbm, ⟨12, _⟩ => ⟨S512, .f32⟩
  | .hbm, ⟨13, _⟩ => ⟨S2x4x64, .f32⟩
  | .hbm, ⟨14, _⟩ => ⟨S512x1, .f32⟩
  | .hbm, ⟨15, _⟩ => ⟨S512, .f32⟩
  | .hbm, ⟨16, _⟩ => ⟨S2x4x64, .f32⟩
  | .hbm, ⟨17, _⟩ => ⟨S512x1, .f32⟩
  | .hbm, ⟨18, _⟩ => ⟨S512, .f32⟩
  | .hbm, ⟨19, _⟩ => ⟨S2x4x64, .f32⟩
  | .hbm, ⟨20, _⟩ => ⟨S2x4x64, .f32⟩
  | .hbm, ⟨21, _⟩ => ⟨S_, .f32⟩
  | .hbm, ⟨22, _⟩ => ⟨S2x4x64, .f32⟩
  | .hbm, ⟨23, _⟩ => ⟨S2x4x64, .f32⟩
  | .hbm, ⟨24, _⟩ => ⟨S_, .f32⟩
  | .hbm, ⟨25, _⟩ => ⟨S2x4x64, .f32⟩
  | .hbm, ⟨26, _⟩ => ⟨S2x4x64, .f32⟩
  | .hbm, ⟨27, _⟩ => ⟨S2x4x64, .f32⟩
  | .hbm, ⟨28, _⟩ => ⟨S_, .f32⟩
  | .hbm, ⟨29, _⟩ => ⟨S2x4x64, .f32⟩
  | .hbm, ⟨30, _⟩ => ⟨S2x4x64, .f32⟩
  | .hbm, ⟨31, _⟩ => ⟨S_, .f32⟩
  | .hbm, ⟨32, _⟩ => ⟨S2x4x64, .f32⟩
  | .hbm, ⟨33, _⟩ => ⟨S2x4x64, .i1⟩
  | .hbm, ⟨34, _⟩ => ⟨S2x4x64, .f32⟩
  | .hbm, ⟨35, _⟩ => ⟨S2x4x64, .f32⟩
  | .hbm, ⟨36, _⟩ => ⟨S_, .f32⟩
  | .hbm, ⟨37, _⟩ => ⟨S2x4, .f32⟩
  | .hbm, ⟨38, _⟩ => ⟨S_, .f32⟩
  | .hbm, ⟨39, _⟩ => ⟨S2x4, .f32⟩
  | .hbm, ⟨40, _⟩ => ⟨S2x4, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S32x65536, .f32⟩
  | .local _ .vmem, ⟨1, _⟩ => ⟨S32x65536, .f32⟩
  | .local _ .vmem, ⟨2, _⟩ => ⟨S32x65536, .f32⟩
  | .local _ .vmem, ⟨3, _⟩ => ⟨S32x65536, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | _, _ => ⟨S2x4x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2x4x64x256x256_S512x65536 : S2x4x64x256x256.ShapeCasts S512x65536
  inb_S32x65536_S32x65536_0_0 : ∀ a, (![0, 0] : Fin 2 → Nat) a + S32x65536.size a ≤ S32x65536.size a
  h_S32x65536 : 0 < S32x65536.numel
  shapeCasts_S32x65536_S32x65536 : S32x65536.ShapeCasts S32x65536
  reduces_S32x65536_S32 : S32x65536.Reduces [1] S32
  shapeCasts_S32_S32x1 : S32.ShapeCasts S32x1
  slices_S32x65536_o0_0_S32x1 : S32x65536.Slices ![0, 0] S32x1
  shapeCasts_S32x1_S32x1 : S32x1.ShapeCasts S32x1
  broadcasts_S32x1_S32x128 : S32x1.Broadcasts S32x128
  inb_S32x128_S32x128_0_0 : ∀ a, (![0, 0] : Fin 2 → Nat) a + S32x128.size a ≤ S32x128.size a
  h_S32x128 : 0 < S32x128.numel
  slices_S512x128_S512x1_0_0 : S512x128.Slices ![0, 0] S512x1
  shapeCasts_S512x1_S512 : S512x1.ShapeCasts S512
  shapeCasts_S512_S2x4x64 : S512.ShapeCasts S2x4x64
  bcast_S_S2x4x64 : S_.BroadcastsInDim S2x4x64 (![] : Fin 0 → Fin S2x4x64.rank)
  reducesTo_S2x4x64_S2x4_d2 : S2x4x64.ReducesTo [2] S2x4
  h_S_ : 0 < S_.numel
  reducesTo_S2x4_S_d0_1 : S2x4.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x65536.size a ≤ S512x65536.size a
  hwx0_0 : ∀ i : grid0.Coords, EltTy.bits .f32 = 32 ∨ (Rect.block (s := S512x65536) S32x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x65536.size a ≤ S512x65536.size a
  hwx0_1 : ∀ i : grid0.Coords, EltTy.bits .f32 = 32 ∨ (Rect.block (s := S512x65536) S32x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S512x128.size a
  hwx0_2 : ∀ i : grid0.Coords, EltTy.bits .f32 = 32 ∨ (Rect.block (s := S512x128) S32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S512x128.size a
  hwx0_3 : ∀ i : grid0.Coords, EltTy.bits .f32 = 32 ∨ (Rect.block (s := S512x128) S32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S512x128.size a
  hwx0_4 : ∀ i : grid0.Coords, EltTy.bits .f32 = 32 ∨ (Rect.block (s := S512x128) S32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S512x128.size a
  hwx0_5 : ∀ i : grid0.Coords, EltTy.bits .f32 = 32 ∨ (Rect.block (s := S512x128) S32x128.size (cc0_transform_5 i) (hinb0_5 i)).WholeWords (EltTy.packing .f32)

variable [Facts₀]

abbrev win0_0 : Pipeline.Window sig grid0 :=
  Pipeline.Window.ofSpec (Memref.whole main_v0) S32x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S32x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S32x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S32x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S32x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x4x64x256x256 : Shape := ⟨5, ![2, 4, 64, 256, 256]⟩
abbrev S_ : Shape := ⟨0, ![]⟩
abbrev S2x4x64x65536 : Shape := ⟨4, ![2, 4, 64, 65536]⟩
abbrev S2x4x64 : Shape := ⟨3, ![2, 4, 64]⟩
abbrev S2x4x64x1 : Shape := ⟨4, ![2, 4, 64, 1]⟩
abbrev S2x4 : Shape := ⟨2, ![2, 4]⟩

abbrev nBuf : Space → Nat
  | .hbm => 46
  | .vmem => 0
  | .smem => 0
  | _ => 0

abbrev bufTy : (tb : Table) → Fin (tcTables nBuf tb) → BufTy
  | .hbm, ⟨0, _⟩ => ⟨S2x4x64x256x256, .f32⟩
  | .hbm, ⟨1, _⟩ => ⟨S2x4x64x256x256, .f32⟩
  | .hbm, ⟨2, _⟩ => ⟨S2x4x64x256x256, .f32⟩
  | .hbm, ⟨3, _⟩ => ⟨S2x4x64x256x256, .f32⟩
  | .hbm, ⟨4, _⟩ => ⟨S_, .f32⟩
  | .hbm, ⟨5, _⟩ => ⟨S2x4x64x256x256, .f32⟩
  | .hbm, ⟨6, _⟩ => ⟨S2x4x64x256x256, .f32⟩
  | .hbm, ⟨7, _⟩ => ⟨S_, .f32⟩
  | .hbm, ⟨8, _⟩ => ⟨S2x4x64x256x256, .f32⟩
  | .hbm, ⟨9, _⟩ => ⟨S2x4x64x256x256, .f32⟩
  | .hbm, ⟨10, _⟩ => ⟨S2x4x64x65536, .f32⟩
  | .hbm, ⟨11, _⟩ => ⟨S2x4x64x65536, .f32⟩
  | .hbm, ⟨12, _⟩ => ⟨S2x4x64x65536, .f32⟩
  | .hbm, ⟨13, _⟩ => ⟨S_, .f32⟩
  | .hbm, ⟨14, _⟩ => ⟨S2x4x64, .f32⟩
  | .hbm, ⟨15, _⟩ => ⟨S_, .f32⟩
  | .hbm, ⟨16, _⟩ => ⟨S2x4x64, .f32⟩
  | .hbm, ⟨17, _⟩ => ⟨S_, .f32⟩
  | .hbm, ⟨18, _⟩ => ⟨S2x4x64, .f32⟩
  | .hbm, ⟨19, _⟩ => ⟨S2x4x64, .f32⟩
  | .hbm, ⟨20, _⟩ => ⟨S_, .f32⟩
  | .hbm, ⟨21, _⟩ => ⟨S2x4x64, .f32⟩
  | .hbm, ⟨22, _⟩ => ⟨S2x4x64, .f32⟩
  | .hbm, ⟨23, _⟩ => ⟨S_, .f32⟩
  | .hbm, ⟨24, _⟩ => ⟨S2x4x64, .f32⟩
  | .hbm, ⟨25, _⟩ => ⟨S2x4x64, .f32⟩
  | .hbm, ⟨26, _⟩ => ⟨S2x4x64, .f32⟩
  | .hbm, ⟨27, _⟩ => ⟨S_, .f32⟩
  | .hbm, ⟨28, _⟩ => ⟨S2x4x64, .f32⟩
  | .hbm, ⟨29, _⟩ => ⟨S2x4x64, .f32⟩
  | .hbm, ⟨30, _⟩ => ⟨S2x4x64x1, .f32⟩
  | .hbm, ⟨31, _⟩ => ⟨S2x4x64, .f32⟩
  | .hbm, ⟨32, _⟩ => ⟨S_, .f32⟩
  | .hbm, ⟨33, _⟩ => ⟨S2x4x64, .f32⟩
  | .hbm, ⟨34, _⟩ => ⟨S2x4x64, .i1⟩
  | .hbm, ⟨35, _⟩ => ⟨S2x4x64, .f32⟩
  | .hbm, ⟨36, _⟩ => ⟨S2x4x64, .f32⟩
  | .hbm, ⟨37, _⟩ => ⟨S_, .f32⟩
  | .hbm, ⟨38, _⟩ => ⟨S2x4, .f32⟩
  | .hbm, ⟨39, _⟩ => ⟨S_, .f32⟩
  | .hbm, ⟨40, _⟩ => ⟨S2x4, .f32⟩
  | .hbm, ⟨41, _⟩ => ⟨S2x4, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S2x4x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_v28 : Ref sig .tc := ⟨.hbm, 41, rfl⟩
abbrev main_cst_10 : Ref sig .tc := ⟨.hbm, 42, rfl⟩
abbrev main_v29 : Ref sig .tc := ⟨.hbm, 43, rfl⟩
abbrev main_cst_11 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S_S2x4x64x256x256 : S_.BroadcastsInDim S2x4x64x256x256 (![] : Fin 0 → Fin S2x4x64x256x256.rank)
  shapeCasts_S2x4x64x256x256_S2x4x64x65536 : S2x4x64x256x256.ShapeCasts S2x4x64x65536
  reducesTo_S2x4x64x65536_S2x4x64_d3 : S2x4x64x65536.ReducesTo [3] S2x4x64
  h_S_ : 0 < S_.numel
  bcast_S_S2x4x64 : S_.BroadcastsInDim S2x4x64 (![] : Fin 0 → Fin S2x4x64.rank)
  slices_S2x4x64x65536_S2x4x64x1_0_0_0_0 : S2x4x64x65536.Slices ![0, 0, 0, 0] S2x4x64x1
  shapeCasts_S2x4x64x1_S2x4x64 : S2x4x64x1.ShapeCasts S2x4x64
  reducesTo_S2x4x64_S2x4_d2 : S2x4x64.ReducesTo [2] S2x4
  reducesTo_S2x4_S_d0_1 : S2x4.ReducesTo [0, 1] S_

variable [Facts₀]

class Facts : Prop extends Facts₀ where

variable [Facts]
-- ==== Proof.LibKeepdims.lean ====
/-
  Layout operations of a `keepdims` reduction read at an index given by coordinates.

  A row reduction that keeps its axis prints as three layout steps around the reduction: the reduced vector
  `[a]` is cast to a column `[a, 1]`, and the column is broadcast back over the row axis to `[a, b]`; a
  value reduced to one number `[1, 1]` is broadcast down a column `[a, 1]`. Each lemma reads one of these at an
  index written with the coordinate constructors `ix1` / `ix2`, so that it applies to a printed operation by
  unification, at any extents. They are the column-shaped companions of the row-shaped lemmas
  `shapeCast_a_1a_apply` and `broadcastTo_1b_ab_apply`.
-/
import Idealize.ShloMosaic.Lib.Pipeline.Value
import Idealize.ShloMosaic.Lib.ValueIdx
import Idealize.ShloMosaic.Lib.ValueLayout

namespace Cert.Lib.Keepdims

open Idealize.ShloMosaic Idealize.ShloMosaic.ValueIdx

variable {α : Type}

/-- An `[a]` array cast to a column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast down a column `[a, 1]` reads, at every `(p, u)`, its one entry. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The same four readings as equations between whole arrays, the form `simp only` rewrites a payload with. -/
theorem shapeCast_a_a1_eq {a : ℕ} (x : (⟨1, ![a]⟩ : Shape).Idx → α) (h : (⟨1, ![a]⟩ : Shape).ShapeCasts ⟨2, ![a, 1]⟩) :
    shapeCast ⟨2, ![a, 1]⟩ x h = fun y => x (ix1 (y 0)) :=
  funext fun y => (congrArg (shapeCast ⟨2, ![a, 1]⟩ x h) (eq_ix2 y)).trans (shapeCast_a_a1_apply x h (y 0) (y 1))

theorem broadcastTo_a1_ab_eq {a b : ℕ} (v : (⟨2, ![a, 1]⟩ : Shape).Idx → α) (h : (⟨2, ![a, 1]⟩ : Shape).Broadcasts ⟨2, ![a, b]⟩) :
    broadcastTo ⟨2, ![a, b]⟩ v h = fun y => v (ix2 (y 0) (0 : Fin 1)) :=
  funext fun y => (congrArg (broadcastTo ⟨2, ![a, b]⟩ v h) (eq_ix2 y)).trans (broadcastTo_a1_ab_apply v h (y 0) (y 1))

theorem broadcastTo_1b_ab_eq {a b : ℕ} (v : (⟨2, ![1, b]⟩ : Shape).Idx → α) (h : (⟨2, ![1, b]⟩ : Shape).Broadcasts ⟨2, ![a, b]⟩) :
    broadcastTo ⟨2, ![a, b]⟩ v h = fun y => v (ix2 (0 : Fin 1) (y 1)) :=
  funext fun y => (congrArg (broadcastTo ⟨2, ![a, b]⟩ v h) (eq_ix2 y)).trans (broadcastTo_1b_ab_apply v h (y 0) (y 1))

theorem broadcastTo_11_a1_eq {a : ℕ} (v : (⟨2, ![1, 1]⟩ : Shape).Idx → α) (h : (⟨2, ![1, 1]⟩ : Shape).Broadcasts ⟨2, ![a, 1]⟩) :
    broadcastTo ⟨2, ![a, 1]⟩ v h = fun _ => v (ix2 (0 : Fin 1) (0 : Fin 1)) :=
  funext fun y => (congrArg (broadcastTo ⟨2, ![a, 1]⟩ v h) (eq_ix2 y)).trans (broadcastTo_11_a1_apply v h (y 0) (y 1))

theorem shapeCast_a_1a_eq {a : ℕ} (x : (⟨1, ![a]⟩ : Shape).Idx → α) (h : (⟨1, ![a]⟩ : Shape).ShapeCasts ⟨2, ![1, a]⟩) :
    shapeCast ⟨2, ![1, a]⟩ x h = fun y => x (ix1 (y 1)) :=
  funext fun y => (congrArg (shapeCast ⟨2, ![1, a]⟩ x h) (eq_ix2 y)).trans (shapeCast_a_1a_apply x h (y 0) (y 1))

end Cert.Lib.Keepdims
-- ==== Proof.Rows.lean ====
/-
  What one grid step of the kernel leaves in each of its four output blocks, entry by entry.

  A step loads a [32, 65536] block of `predict` and of `target` (32 slices, each plane flattened to a row), and for each row `p`
  forms three lane sums — of `σ(predict) · target`, of `σ(predict)` and of `target` — and takes the row's first `target`
  entry. Each of the four columns of 32 numbers is then spread over the 128 lanes of a [32, 128] output block, so entry
  `(p, q)` of a block depends on `p` only.
-/
import proofs.«175234_j12704513262234_1_alg».proof.Proof.Gen.KernelIdeal.Skeleton
import proofs.«175234_j12704513262234_1_alg».proof.Proof.LibKeepdims
import Idealize.ShloMosaic.PureOps.Ideal.Laws
import Idealize.ShloMosaic.Lib.Pipeline.Value
import Idealize.ShloMosaic.Lib.ValueIdx

noncomputable section

namespace Cert.KernelIdeal.Rows

open Cert.KernelIdeal Cert.KernelIdeal.Gen Idealize.ShloMosaic Idealize.ShloMosaic.ValueIdx Cert.Lib.Keepdims

/-- A lane sum of a [32, 65536] block kept as a column and spread over 128 lanes holds, at `(p, q)`, the sum of row `p`. -/
theorem spread_rowSum_apply (v : FVec Ideal S32x65536 .f32) (p : Fin 32) (q : Fin 128) :
    broadcastTo S32x128 (shapeCast S32x1 (shapeCast S32x1
        (multiReduction (F := Ideal) .add [1] S32 v 0x00000000#32 reduces_S32x65536_S32 (.inl rfl) rfl)
        shapeCasts_S32_S32x1) shapeCasts_S32x1_S32x1) broadcasts_S32x1_S32x128 (ix2 p q)
      = ∑ k : Fin 65536, v (ix2 p k) := by
  refine (broadcastTo_a1_ab_apply _ broadcasts_S32x1_S32x128 p q).trans ?_
  rw [shapeCast_self]
  refine (shapeCast_a_a1_apply _ shapeCasts_S32_S32x1 p (0 : Fin 1)).trans ?_
  refine (Ideal.multiReduction_add_single v 0x00000000#32 reduces_S32x65536_S32 (.inl rfl) rfl (ix1 p)).trans ?_
  refine Finset.sum_congr rfl fun k _ => congrArg v ?_
  funext a
  apply Fin.ext
  match a with
  | ⟨0, _⟩ => rfl
  | ⟨1, _⟩ => rfl

/-- Block entry `(p, q)` of the first output: the sum over row `p` of `σ(predict) · target`. -/
theorem overlap_apply (x0 x1 : Vec Ideal S32x65536 .f32) (p : Fin 32) (q : Fin 128) :
    k0_pay3 x0 x1 (ix2 p q) = ∑ k : Fin 65536, Ideal.logistic (x0 (ix2 p k)) * x1 (ix2 p k) := by
  unfold k0_pay3
  refine (spread_rowSum_apply _ p q).trans ?_
  unfold k0_pay1 k0_pay2
  rw [shapeCast_self, shapeCast_self]
  rfl

/-- Block entry `(p, q)` of the second output: the sum over row `p` of `σ(predict)`. -/
theorem sigmoidMass_apply (x0 : Vec Ideal S32x65536 .f32) (p : Fin 32) (q : Fin 128) :
    k0_pay4 x0 (ix2 p q) = ∑ k : Fin 65536, Ideal.logistic (x0 (ix2 p k)) := by
  unfold k0_pay4
  refine (spread_rowSum_apply _ p q).trans ?_
  unfold k0_pay1
  rw [shapeCast_self]
  rfl

/-- Block entry `(p, q)` of the third output: the sum over row `p` of `target`. -/
theorem targetMass_apply (x1 : Vec Ideal S32x65536 .f32) (p : Fin 32) (q : Fin 128) :
    k0_pay5 x1 (ix2 p q) = ∑ k : Fin 65536, x1 (ix2 p k) := by
  unfold k0_pay5
  refine (spread_rowSum_apply _ p q).trans ?_
  unfold k0_pay2
  rw [shapeCast_self]

/-- Block entry `(p, q)` of the fourth output: the first `target` entry of row `p`. -/
theorem firstEntry_apply (x1 : Vec Ideal S32x65536 .f32) (p : Fin 32) (q : Fin 128) :
    k0_pay6 x1 (ix2 p q) = x1 (ix2 p (0 : Fin 65536)) := by
  unfold k0_pay6
  refine (broadcastTo_a1_ab_apply _ broadcasts_S32x1_S32x128 p q).trans ?_
  rw [shapeCast_self]
  unfold k0_pay2
  rw [shapeCast_self]
  refine extractStridedSlice_apply _ _ slices_S32x65536_o0_0_S32x1 _ _ fun a => ?_
  match a with
  | ⟨0, _⟩ => show p.val = 0 + p.val; omega
  | ⟨1, _⟩ => rfl

end Cert.KernelIdeal.Rows

end
-- ==== Proof.RowArrays.lean ====
/-
  From blocks to arrays: what each of the kernel's four result arrays holds after the last grid step.

  The grid has 16 steps. Step `t` reads rows `32 t … 32 t + 31` of the two [512, 65536] inputs (one row per slice, the
  plane flattened) and writes rows `32 t … 32 t + 31` of each [512, 128] result. The result blocks tile their arrays, so after
  the run entry `(r, q)` of a result array is the row quantity of row `r` of the inputs, whatever the lane `q`.
-/
import proofs.«175234_j12704513262234_1_alg».proof.Proof.Gen.KernelIdeal.Frame
import proofs.«175234_j12704513262234_1_alg».proof.Proof.Rows
import Idealize.ShloMosaic.Lib.Pipeline.Value

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem origin : (![0, 0] : Fin 2 → Nat) = fun _ => 0 := funext fun a => by fin_cases a <;> rfl

/-- The row of a result entry. -/
abbrev rowOf (i : S512x128.Idx) : Fin 512 := ⟨(i 0).val, (i 0).isLt⟩

/-- The four row quantities of [512, 65536] inputs, spread over the lanes of a [512, 128] array. -/
def rowOverlap (a0 a1 : FVec Ideal S512x65536 .f32) : FVec Ideal S512x128 .f32 :=
  fun i => ∑ k : Fin 65536, Ideal.logistic (a0 (ix2 (rowOf i) k)) * a1 (ix2 (rowOf i) k)
def rowSigmoidMass (a0 : FVec Ideal S512x65536 .f32) : FVec Ideal S512x128 .f32 :=
  fun i => ∑ k : Fin 65536, Ideal.logistic (a0 (ix2 (rowOf i) k))
def rowTargetMass (a1 : FVec Ideal S512x65536 .f32) : FVec Ideal S512x128 .f32 :=
  fun i => ∑ k : Fin 65536, a1 (ix2 (rowOf i) k)
def rowFirstEntry (a1 : FVec Ideal S512x65536 .f32) : FVec Ideal S512x128 .f32 :=
  fun i => a1 (ix2 (rowOf i) (0 : Fin 65536))

/-- Every window's block index at step `t` is `(t, 0)`. -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- Row `p` of step `t`'s `predict` block is row `32 t + p` of the flattened `predict`. -/
theorem predict_block_apply (c : Dev nD) (t : Fin cfg0.N) (p : Fin 32) (k : Fin 65536) (r : Fin 512) (hr : r.val = t.val * 32 + p.val) :
    (iblk m c 0 t : Vec Ideal S32x65536 .f32) (ix2 p k) = (V m c main_v0 : S512x65536.Idx → Elt Ideal .f32) (ix2 r k) := by
  obtain ⟨⟨e0, e1⟩, -⟩ := block_index t
  unfold iblk
  rw [View.read_apply]
  show V m c main_v0 _ = V m c main_v0 _
  congr 1
  funext a
  apply Fin.ext
  match a with
  | ⟨0, _⟩ => show win0_0.index t (0 : Fin 2) * 32 + 1 * p.val = r.val; rw [e0, hr]; omega
  | ⟨1, _⟩ => show win0_0.index t (1 : Fin 2) * 65536 + 1 * k.val = k.val; rw [e1]; omega

/-- Row `p` of step `t`'s `target` block is row `32 t + p` of the flattened `target`. -/
theorem target_block_apply (c : Dev nD) (t : Fin cfg0.N) (p : Fin 32) (k : Fin 65536) (r : Fin 512) (hr : r.val = t.val * 32 + p.val) :
    (iblk m c 1 t : Vec Ideal S32x65536 .f32) (ix2 p k) = (V m c main_v1 : S512x65536.Idx → Elt Ideal .f32) (ix2 r k) := by
  obtain ⟨-, ⟨e0, e1⟩, -⟩ := block_index t
  unfold iblk
  rw [View.read_apply]
  show V m c main_v1 _ = V m c main_v1 _
  congr 1
  funext a
  apply Fin.ext
  match a with
  | ⟨0, _⟩ => show win0_1.index t (0 : Fin 2) * 32 + 1 * p.val = r.val; rw [e0, hr]; omega
  | ⟨1, _⟩ => show win0_1.index t (1 : Fin 2) * 65536 + 1 * k.val = k.val; rw [e1]; omega

/-! ## Result 0 -/

/-- What step `t` writes back is block `t` of the row sums of `σ(predict) · target`. -/
theorem flushed2_eq (c : Dev nD) (t : Fin cfg0.N) :
    (dats m 0 c).flushed 2 t = ((cfg0.win 2).blk t).view.read (Elt Ideal) (rowOverlap (V m c main_v0) (V m c main_v1)) := by
  show (cfg0.win 2).cut (grid0.coords t) ((dats m 0 c).after 2 t) = _
  rw [after0_2]
  unfold out0_2
  rw [View.canon_unit_zero origin]
  simp only [View.ld_unit_zero (S := S32x65536) origin]
  obtain ⟨-, -, ⟨e0, e1⟩, -, -, -⟩ := block_index t
  funext j
  have hp : (j 0).val < 32 := (j 0).isLt
  have hq : (j 1).val < 128 := (j 1).isLt
  have hj : (win0 2).xinj (grid0.coords t) j = ix2 (⟨(j 0).val, hp⟩ : Fin 32) (⟨(j 1).val, hq⟩ : Fin 128) := by
    funext a
    apply Fin.ext
    match a with
    | ⟨0, _⟩ => rfl
    | ⟨1, _⟩ => rfl
  generalize hG : rowOverlap (V m c main_v0) (V m c main_v1) = G
  show k0_pay3 (iblk m c 0 t) (iblk m c 1 t) ((win0 2).xinj (grid0.coords t) j) = G (((cfg0.win 2).blk t).view.emb j)
  subst hG
  have hr : (rowOf (((cfg0.win 2).blk t).view.emb j)).val = t.val * 32 + (j 0).val := by
    show win0_2.index t (0 : Fin 2) * 32 + 1 * (j 0).val = _
    rw [e0]; omega
  refine (congrArg (k0_pay3 (iblk m c 0 t) (iblk m c 1 t)) hj).trans ?_
  refine (Rows.overlap_apply (iblk m c 0 t) (iblk m c 1 t) _ _).trans ?_
  unfold rowOverlap
  refine Finset.sum_congr rfl fun k _ => ?_
  exact congrArg₂ (· * ·) (congrArg Ideal.logistic (predict_block_apply m c t ⟨(j 0).val, hp⟩ k _ hr)) (target_block_apply m c t ⟨(j 0).val, hp⟩ k _ hr)

/-- An index is in step `t`'s block iff each coordinate is in the block's range. -/
theorem mem_blk2 (t : Fin cfg0.N) (i : S512x128.Idx) :
    i ∈ ((cfg0.win 2).blk t).view.set ↔ ∀ a : Fin 2, win0_2.index t a * S32x128.size a ≤ (i a).val ∧ (i a).val < win0_2.index t a * S32x128.size a + S32x128.size a := by
  show i ∈ ((View.whole main_v2_0).slice (win0_2.rect t)).set ↔ _
  rw [View.set_slice_whole, Rect.mem_set_unit]
  exact Iff.rfl

/-- Row `r` is written back by step `r / 32`. -/
theorem cover2 (i : S512x128.Idx) : ∃ t : Fin cfg0.N, (cfg0.win 2).flush t = true ∧ i ∈ ((cfg0.win 2).blk t).view.set := by
  have hi0 : (i 0).val < 512 := (i 0).isLt
  have hi1 : (i 1).val < 128 := (i 1).isLt
  have hN : cfg0.N = 16 := N_0
  have ht : (i 0).val / 32 < cfg0.N := by rw [hN]; omega
  refine ⟨⟨(i 0).val / 32, ht⟩, flush0_2 _, ?_⟩
  rw [mem_blk2]
  obtain ⟨-, -, ⟨e0, e1⟩, -, -, -⟩ := block_index ⟨(i 0).val / 32, ht⟩
  intro a
  match a with
  | ⟨0, _⟩ =>
    show win0_2.index ⟨(i 0).val / 32, ht⟩ (0 : Fin 2) * 32 ≤ (i 0).val ∧ (i 0).val < win0_2.index ⟨(i 0).val / 32, ht⟩ (0 : Fin 2) * 32 + 32
    rw [e0]; show (i 0).val / 32 * 32 ≤ (i 0).val ∧ (i 0).val < (i 0).val / 32 * 32 + 32; omega
  | ⟨1, _⟩ =>
    show win0_2.index ⟨(i 0).val / 32, ht⟩ (1 : Fin 2) * 128 ≤ (i 1).val ∧ (i 1).val < win0_2.index ⟨(i 0).val / 32, ht⟩ (1 : Fin 2) * 128 + 128
    rw [e1]; omega

/-- The array after the run. -/
theorem final2 (c : Dev nD) : (dats m 0 c).arrAt 2 cfg0.N = rowOverlap (V m c main_v0) (V m c main_v1) :=
  (dats m 0 c).arrAt_eq_of_cover 2 _ (fun t _ => flushed2_eq m c t) cover2

/-! ## Result 1 -/

/-- What step `t` writes back is block `t` of the row sums of `σ(predict)`. -/
theorem flushed3_eq (c : Dev nD) (t : Fin cfg0.N) :
    (dats m 0 c).flushed 3 t = ((cfg0.win 3).blk t).view.read (Elt Ideal) (rowSigmoidMass (V m c main_v0)) := by
  show (cfg0.win 3).cut (grid0.coords t) ((dats m 0 c).after 3 t) = _
  rw [after0_3]
  unfold out0_3
  rw [View.canon_unit_zero origin]
  simp only [View.ld_unit_zero (S := S32x65536) origin]
  obtain ⟨-, -, -, ⟨e0, e1⟩, -, -⟩ := block_index t
  funext j
  have hp : (j 0).val < 32 := (j 0).isLt
  have hq : (j 1).val < 128 := (j 1).isLt
  have hj : (win0 3).xinj (grid0.coords t) j = ix2 (⟨(j 0).val, hp⟩ : Fin 32) (⟨(j 1).val, hq⟩ : Fin 128) := by
    funext a
    apply Fin.ext
    match a with
    | ⟨0, _⟩ => rfl
    | ⟨1, _⟩ => rfl
  generalize hG : rowSigmoidMass (V m c main_v0) = G
  show k0_pay4 (iblk m c 0 t) ((win0 3).xinj (grid0.coords t) j) = G (((cfg0.win 3).blk t).view.emb j)
  subst hG
  have hr : (rowOf (((cfg0.win 3).blk t).view.emb j)).val = t.val * 32 + (j 0).val := by
    show win0_3.index t (0 : Fin 2) * 32 + 1 * (j 0).val = _
    rw [e0]; omega
  refine (congrArg (k0_pay4 (iblk m c 0 t)) hj).trans ?_
  refine (Rows.sigmoidMass_apply (iblk m c 0 t) _ _).trans ?_
  unfold rowSigmoidMass
  refine Finset.sum_congr rfl fun k _ => ?_
  exact congrArg Ideal.logistic (predict_block_apply m c t ⟨(j 0).val, hp⟩ k _ hr)

/-- An index is in step `t`'s block iff each coordinate is in the block's range. -/
theorem mem_blk3 (t : Fin cfg0.N) (i : S512x128.Idx) :
    i ∈ ((cfg0.win 3).blk t).view.set ↔ ∀ a : Fin 2, win0_3.index t a * S32x128.size a ≤ (i a).val ∧ (i a).val < win0_3.index t a * S32x128.size a + S32x128.size a := by
  show i ∈ ((View.whole main_v2_1).slice (win0_3.rect t)).set ↔ _
  rw [View.set_slice_whole, Rect.mem_set_unit]
  exact Iff.rfl

/-- Row `r` is written back by step `r / 32`. -/
theorem cover3 (i : S512x128.Idx) : ∃ t : Fin cfg0.N, (cfg0.win 3).flush t = true ∧ i ∈ ((cfg0.win 3).blk t).view.set := by
  have hi0 : (i 0).val < 512 := (i 0).isLt
  have hi1 : (i 1).val < 128 := (i 1).isLt
  have hN : cfg0.N = 16 := N_0
  have ht : (i 0).val / 32 < cfg0.N := by rw [hN]; omega
  refine ⟨⟨(i 0).val / 32, ht⟩, flush0_3 _, ?_⟩
  rw [mem_blk3]
  obtain ⟨-, -, -, ⟨e0, e1⟩, -, -⟩ := block_index ⟨(i 0).val / 32, ht⟩
  intro a
  match a with
  | ⟨0, _⟩ =>
    show win0_3.index ⟨(i 0).val / 32, ht⟩ (0 : Fin 2) * 32 ≤ (i 0).val ∧ (i 0).val < win0_3.index ⟨(i 0).val / 32, ht⟩ (0 : Fin 2) * 32 + 32
    rw [e0]; show (i 0).val / 32 * 32 ≤ (i 0).val ∧ (i 0).val < (i 0).val / 32 * 32 + 32; omega
  | ⟨1, _⟩ =>
    show win0_3.index ⟨(i 0).val / 32, ht⟩ (1 : Fin 2) * 128 ≤ (i 1).val ∧ (i 1).val < win0_3.index ⟨(i 0).val / 32, ht⟩ (1 : Fin 2) * 128 + 128
    rw [e1]; omega

/-- The array after the run. -/
theorem final3 (c : Dev nD) : (dats m 0 c).arrAt 3 cfg0.N = rowSigmoidMass (V m c main_v0) :=
  (dats m 0 c).arrAt_eq_of_cover 3 _ (fun t _ => flushed3_eq m c t) cover3

/-! ## Result 2 -/

/-- What step `t` writes back is block `t` of the row sums of `target`. -/
theorem flushed4_eq (c : Dev nD) (t : Fin cfg0.N) :
    (dats m 0 c).flushed 4 t = ((cfg0.win 4).blk t).view.read (Elt Ideal) (rowTargetMass (V m c main_v1)) := by
  show (cfg0.win 4).cut (grid0.coords t) ((dats m 0 c).after 4 t) = _
  rw [after0_4]
  unfold out0_4
  rw [View.canon_unit_zero origin]
  simp only [View.ld_unit_zero (S := S32x65536) origin]
  obtain ⟨-, -, -, -, ⟨e0, e1⟩, -⟩ := block_index t
  funext j
  have hp : (j 0).val < 32 := (j 0).isLt
  have hq : (j 1).val < 128 := (j 1).isLt
  have hj : (win0 4).xinj (grid0.coords t) j = ix2 (⟨(j 0).val, hp⟩ : Fin 32) (⟨(j 1).val, hq⟩ : Fin 128) := by
    funext a
    apply Fin.ext
    match a with
    | ⟨0, _⟩ => rfl
    | ⟨1, _⟩ => rfl
  generalize hG : rowTargetMass (V m c main_v1) = G
  show k0_pay5 (iblk m c 1 t) ((win0 4).xinj (grid0.coords t) j) = G (((cfg0.win 4).blk t).view.emb j)
  subst hG
  have hr : (rowOf (((cfg0.win 4).blk t).view.emb j)).val = t.val * 32 + (j 0).val := by
    show win0_4.index t (0 : Fin 2) * 32 + 1 * (j 0).val = _
    rw [e0]; omega
  refine (congrArg (k0_pay5 (iblk m c 1 t)) hj).trans ?_
  refine (Rows.targetMass_apply (iblk m c 1 t) _ _).trans ?_
  unfold rowTargetMass
  exact Finset.sum_congr rfl fun k _ => target_block_apply m c t ⟨(j 0).val, hp⟩ k _ hr

/-- An index is in step `t`'s block iff each coordinate is in the block's range. -/
theorem mem_blk4 (t : Fin cfg0.N) (i : S512x128.Idx) :
    i ∈ ((cfg0.win 4).blk t).view.set ↔ ∀ a : Fin 2, win0_4.index t a * S32x128.size a ≤ (i a).val ∧ (i a).val < win0_4.index t a * S32x128.size a + S32x128.size a := by
  show i ∈ ((View.whole main_v2_2).slice (win0_4.rect t)).set ↔ _
  rw [View.set_slice_whole, Rect.mem_set_unit]
  exact Iff.rfl

/-- Row `r` is written back by step `r / 32`. -/
theorem cover4 (i : S512x128.Idx) : ∃ t : Fin cfg0.N, (cfg0.win 4).flush t = true ∧ i ∈ ((cfg0.win 4).blk t).view.set := by
  have hi0 : (i 0).val < 512 := (i 0).isLt
  have hi1 : (i 1).val < 128 := (i 1).isLt
  have hN : cfg0.N = 16 := N_0
  have ht : (i 0).val / 32 < cfg0.N := by rw [hN]; omega
  refine ⟨⟨(i 0).val / 32, ht⟩, flush0_4 _, ?_⟩
  rw [mem_blk4]
  obtain ⟨-, -, -, -, ⟨e0, e1⟩, -⟩ := block_index ⟨(i 0).val / 32, ht⟩
  intro a
  match a with
  | ⟨0, _⟩ =>
    show win0_4.index ⟨(i 0).val / 32, ht⟩ (0 : Fin 2) * 32 ≤ (i 0).val ∧ (i 0).val < win0_4.index ⟨(i 0).val / 32, ht⟩ (0 : Fin 2) * 32 + 32
    rw [e0]; show (i 0).val / 32 * 32 ≤ (i 0).val ∧ (i 0).val < (i 0).val / 32 * 32 + 32; omega
  | ⟨1, _⟩ =>
    show win0_4.index ⟨(i 0).val / 32, ht⟩ (1 : Fin 2) * 128 ≤ (i 1).val ∧ (i 1).val < win0_4.index ⟨(i 0).val / 32, ht⟩ (1 : Fin 2) * 128 + 128
    rw [e1]; omega

/-- The array after the run. -/
theorem final4 (c : Dev nD) : (dats m 0 c).arrAt 4 cfg0.N = rowTargetMass (V m c main_v1) :=
  (dats m 0 c).arrAt_eq_of_cover 4 _ (fun t _ => flushed4_eq m c t) cover4

/-! ## Result 3 -/

/-- What step `t` writes back is block `t` of the rows' first `target` entries. -/
theorem flushed5_eq (c : Dev nD) (t : Fin cfg0.N) :
    (dats m 0 c).flushed 5 t = ((cfg0.win 5).blk t).view.read (Elt Ideal) (rowFirstEntry (V m c main_v1)) := by
  show (cfg0.win 5).cut (grid0.coords t) ((dats m 0 c).after 5 t) = _
  rw [after0_5]
  unfold out0_5
  rw [View.canon_unit_zero origin]
  simp only [View.ld_unit_zero (S := S32x65536) origin]
  obtain ⟨-, -, -, -, -, ⟨e0, e1⟩⟩ := block_index t
  funext j
  have hp : (j 0).val < 32 := (j 0).isLt
  have hq : (j 1).val < 128 := (j 1).isLt
  have hj : (win0 5).xinj (grid0.coords t) j = ix2 (⟨(j 0).val, hp⟩ : Fin 32) (⟨(j 1).val, hq⟩ : Fin 128) := by
    funext a
    apply Fin.ext
    match a with
    | ⟨0, _⟩ => rfl
    | ⟨1, _⟩ => rfl
  generalize hG : rowFirstEntry (V m c main_v1) = G
  show k0_pay6 (iblk m c 1 t) ((win0 5).xinj (grid0.coords t) j) = G (((cfg0.win 5).blk t).view.emb j)
  subst hG
  have hr : (rowOf (((cfg0.win 5).blk t).view.emb j)).val = t.val * 32 + (j 0).val := by
    show win0_5.index t (0 : Fin 2) * 32 + 1 * (j 0).val = _
    rw [e0]; omega
  refine (congrArg (k0_pay6 (iblk m c 1 t)) hj).trans ?_
  refine (Rows.firstEntry_apply (iblk m c 1 t) _ _).trans ?_
  unfold rowFirstEntry
  exact target_block_apply m c t ⟨(j 0).val, hp⟩ 0 _ hr

/-- An index is in step `t`'s block iff each coordinate is in the block's range. -/
theorem mem_blk5 (t : Fin cfg0.N) (i : S512x128.Idx) :
    i ∈ ((cfg0.win 5).blk t).view.set ↔ ∀ a : Fin 2, win0_5.index t a * S32x128.size a ≤ (i a).val ∧ (i a).val < win0_5.index t a * S32x128.size a + S32x128.size a := by
  show i ∈ ((View.whole main_v2_3).slice (win0_5.rect t)).set ↔ _
  rw [View.set_slice_whole, Rect.mem_set_unit]
  exact Iff.rfl

/-- Row `r` is written back by step `r / 32`. -/
theorem cover5 (i : S512x128.Idx) : ∃ t : Fin cfg0.N, (cfg0.win 5).flush t = true ∧ i ∈ ((cfg0.win 5).blk t).view.set := by
  have hi0 : (i 0).val < 512 := (i 0).isLt
  have hi1 : (i 1).val < 128 := (i 1).isLt
  have hN : cfg0.N = 16 := N_0
  have ht : (i 0).val / 32 < cfg0.N := by rw [hN]; omega
  refine ⟨⟨(i 0).val / 32, ht⟩, flush0_5 _, ?_⟩
  rw [mem_blk5]
  obtain ⟨-, -, -, -, -, ⟨e0, e1⟩⟩ := block_index ⟨(i 0).val / 32, ht⟩
  intro a
  match a with
  | ⟨0, _⟩ =>
    show win0_5.index ⟨(i 0).val / 32, ht⟩ (0 : Fin 2) * 32 ≤ (i 0).val ∧ (i 0).val < win0_5.index ⟨(i 0).val / 32, ht⟩ (0 : Fin 2) * 32 + 32
    rw [e0]; show (i 0).val / 32 * 32 ≤ (i 0).val ∧ (i 0).val < (i 0).val / 32 * 32 + 32; omega
  | ⟨1, _⟩ =>
    show win0_5.index ⟨(i 0).val / 32, ht⟩ (1 : Fin 2) * 128 ≤ (i 1).val ∧ (i 1).val < win0_5.index ⟨(i 0).val / 32, ht⟩ (1 : Fin 2) * 128 + 128
    rw [e1]; omega

/-- The array after the run. -/
theorem final5 (c : Dev nD) : (dats m 0 c).arrAt 5 cfg0.N = rowFirstEntry (V m c main_v1) :=
  (dats m 0 c).arrAt_eq_of_cover 5 _ (fun t _ => flushed5_eq m c t) cover5

end Cert.KernelIdeal.Arrays

end
-- ==== Proof.Dice.lean ====
/-
  The quantities the dice loss is built from, over the extended reals.

  The two arguments are arrays of shape [2, 4, 64, 256, 256]: for each (batch, organ, depth) slice `j` a 256 × 256 plane.
  Flattened row-major, the plane of slice `j` is the stretch of 65536 consecutive entries that starts at position
  `((j₀ · 4 + j₁) · 64 + j₂) · 65536`; entry `k` of it sits at plane coordinates `(k / 256, k % 256)`.

  Per slice the loss needs four numbers: the sum over the plane of `σ(predict) · target`, the sum of `σ(predict)`, the sum
  of `target`, and the plane's first entry of `target` (`σ` the logistic function `1 / (1 + e⁻ˣ)`). They are defined here
  once, as functions of the two argument arrays; both programs are then shown to compute exactly these.
-/
import Idealize.ShloMosaic.PureOps.Ideal
import Idealize.ShloMosaic.Lib.ValueIdx

noncomputable section

namespace Cert.Dice

open Idealize.ShloMosaic Idealize.ShloMosaic.ValueIdx

/-- The arguments' shape. -/
abbrev Vol : Shape := ⟨5, ![2, 4, 64, 256, 256]⟩
/-- One number per (batch, organ, depth) slice. -/
abbrev Slices : Shape := ⟨3, ![2, 4, 64]⟩

/-- Entry `k` of the flattened plane of slice `j`. -/
abbrev planeIdx (j : Slices.Idx) (k : Fin 65536) : Vol.Idx :=
  ix5 (j 0) (j 1) (j 2) ⟨k.val / 256, by have := k.isLt; omega⟩ ⟨k.val % 256, by omega⟩

/-- Its row-major position in the whole array. -/
theorem planeIdx_rowMajor (j : Slices.Idx) (k : Fin 65536) :
    (Vol.rowMajor (planeIdx j k)).val = (((j 0).val * 4 + (j 1).val) * 64 + (j 2).val) * 65536 + k.val := by
  rw [Shape.rowMajor_val_five]
  show (((((j 0).val * 4 + (j 1).val) * 64 + (j 2).val) * 256 + k.val / 256) * 256 + k.val % 256) = _
  omega

/-- `∑ σ(predict) · target` over the plane of each slice. -/
def overlap (P T : FVec Ideal Vol .f32) : FVec Ideal Slices .f32 :=
  fun j => ∑ k : Fin 65536, Ideal.logistic (P (planeIdx j k)) * T (planeIdx j k)

/-- `∑ σ(predict)` over the plane of each slice. -/
def sigmoidMass (P : FVec Ideal Vol .f32) : FVec Ideal Slices .f32 :=
  fun j => ∑ k : Fin 65536, Ideal.logistic (P (planeIdx j k))

/-- `∑ target` over the plane of each slice. -/
def targetMass (T : FVec Ideal Vol .f32) : FVec Ideal Slices .f32 :=
  fun j => ∑ k : Fin 65536, T (planeIdx j k)

/-- The first entry of each slice's plane of `target` (a slice whose first entry is −1 is left out of the average). -/
def firstEntry (T : FVec Ideal Vol .f32) : FVec Ideal Slices .f32 :=
  fun j => T (planeIdx j 0)

/-! ## The loss from the four quantities -/

/-- One number per (batch, organ) pair. -/
abbrev Pairs : Shape := ⟨2, ![2, 4]⟩
/-- A single number. -/
abbrev Point : Shape := ⟨0, ![]⟩

theorem point_to_slices : Point.BroadcastsInDim Slices (![] : Fin 0 → Fin Slices.rank) := by decide
theorem slices_to_pairs : Slices.ReducesTo [2] Pairs := by decide
theorem pairs_to_point : Pairs.ReducesTo [0, 1] Point := by decide
theorem point_pos : 0 < Point.numel := by decide

/-- A constant spread over the slices. -/
abbrev everySlice (b : BitVec 32) : FVec Ideal Slices .f32 :=
  broadcastInDim Slices ![] point_to_slices (constant (F := Ideal) Point .f32 b)

/-- Which slices count: `1` where the first `target` entry is not `−1`, else `0`. -/
abbrev counted (first : FVec Ideal Slices .f32) : FVec Ideal Slices .f32 :=
  uitofp (F := Ideal) .f32 (cmpf .une first (everySlice 0xBF800000#32))

/-- The dice loss: per slice `1 − 2 · overlap / (sigmoidMass + targetMass + 1)`; per (batch, organ) pair the sum of the
    losses of the counted slices divided by their number (sums along the depth axis, from 0); then the sum over the eight
    pairs (from 0) divided by 8. -/
def lossOf (numer psum tsum first : FVec Ideal Slices .f32) : FVec Ideal Point .f32 :=
  Host.divf (F := Ideal)
    (Host.reduceAdd (F := Ideal)
      (Host.divf (F := Ideal)
        (Host.reduceAdd (F := Ideal)
          (mulf
            (subf (everySlice 0x3F800000#32)
              (Host.divf (F := Ideal) (mulf (everySlice 0x40000000#32) numer) (addf (addf psum tsum) (everySlice 0x3F800000#32))))
            (counted first))
          (constant (F := Ideal) Point .f32 0x00000000#32) slices_to_pairs point_pos)
        (Host.reduceAdd (F := Ideal) (counted first) (constant (F := Ideal) Point .f32 0x00000000#32) slices_to_pairs point_pos))
      (constant (F := Ideal) Point .f32 0x00000000#32) pairs_to_point point_pos)
    (constant (F := Ideal) Point .f32 0x41000000#32)

/-- The loss of a pair of arguments. -/
def loss (P T : FVec Ideal Vol .f32) : FVec Ideal Point .f32 :=
  lossOf (overlap P T) (sigmoidMass P) (targetMass T) (firstEntry T)

end Cert.Dice

end
-- ==== Proof.SliceColumns.lean ====
/-
  Reading the kernel's result arrays slice by slice.

  After the region the program keeps lane 0 of each [512, 128] result, drops the unit axis and regroups the 512 rows as
  [2, 4, 64]: slice `j` is row `(j₀ · 4 + j₁) · 64 + j₂`. The [512, 65536] inputs were the arguments with each slice's plane
  flattened into that same row, so row `r`, entry `k` of an input is the argument's entry `Dice.planeIdx j k`. Hence the
  four regrouped columns are the four per-slice quantities of `Cert.Dice`.
-/
import proofs.«175234_j12704513262234_1_alg».proof.Proof.RowArrays
import proofs.«175234_j12704513262234_1_alg».proof.Proof.Dice
import proofs.«175234_j12704513262234_1_alg».proof.Proof.LibKeepdims

noncomputable section

namespace Cert.KernelIdeal.Columns

open Cert.KernelIdeal Cert.KernelIdeal.Gen Cert.KernelIdeal.Arrays Idealize.ShloMosaic Idealize.ShloMosaic.ValueIdx Cert.Lib.Keepdims

/-- The row of the flattened arrays that holds slice `j`. -/
abbrev sliceRow (j : S2x4x64.Idx) : Fin 512 :=
  ⟨((j 0).val * 4 + (j 1).val) * 64 + (j 2).val, by
    have h0 : (j 0).val < 2 := (j 0).isLt
    have h1 : (j 1).val < 4 := (j 1).isLt
    have h2 : (j 2).val < 64 := (j 2).isLt
    omega⟩

/-- Entry `k` of row `sliceRow j` of a flattened argument is entry `k` of slice `j`'s plane. -/
theorem flat_plane (X : FVec Ideal S2x4x64x256x256 .f32) (j : S2x4x64.Idx) (k : Fin 65536) :
    shapeCast S512x65536 X shapeCasts_S2x4x64x256x256_S512x65536 (ix2 (sliceRow j) k) = X (Dice.planeIdx j k) := by
  refine shapeCast_apply X shapeCasts_S2x4x64x256x256_S512x65536 _ _ ?_
  refine (Dice.planeIdx_rowMajor j k).trans ?_
  rw [Shape.rowMajor_val_two]
  rfl

/-- Lane 0 of a [512, 128] array, regrouped by slice: at `j` the array's entry `(sliceRow j, 0)`. -/
theorem column_apply (A : FVec Ideal S512x128 .f32) (j : S2x4x64.Idx) :
    shapeCast S2x4x64 (shapeCast S512 (extractStridedSlice S512x1 ![0, 0] A slices_S512x128_S512x1_0_0) shapeCasts_S512x1_S512)
        shapeCasts_S512_S2x4x64 j = A (ix2 (sliceRow j) (0 : Fin 128)) := by
  refine (shapeCast_apply _ shapeCasts_S512_S2x4x64 j (ix1 (sliceRow j)) ?_).trans ?_
  · rw [Shape.rowMajor_val_one, Shape.rowMajor_val_three]
    rfl
  refine (shapeCast_a1_a_apply _ shapeCasts_S512x1_S512 (sliceRow j)).trans ?_
  refine extractStridedSlice_apply _ A slices_S512x128_S512x1_0_0 _ _ fun a => ?_
  match a with
  | ⟨0, _⟩ => show (sliceRow j).val = 0 + (sliceRow j).val; omega
  | ⟨1, _⟩ => rfl

variable (P T : FVec Ideal S2x4x64x256x256 .f32)

local notation "flat" X => shapeCast S512x65536 X shapeCasts_S2x4x64x256x256_S512x65536

theorem overlap_column :
    shapeCast S2x4x64 (shapeCast S512 (extractStridedSlice S512x1 ![0, 0] (rowOverlap (flat P) (flat T)) slices_S512x128_S512x1_0_0)
        shapeCasts_S512x1_S512) shapeCasts_S512_S2x4x64 = Dice.overlap P T := by
  funext j
  refine (column_apply _ j).trans ?_
  unfold rowOverlap Dice.overlap
  refine Finset.sum_congr rfl fun k _ => ?_
  exact congrArg₂ (· * ·) (congrArg Ideal.logistic (flat_plane P j k)) (flat_plane T j k)

theorem sigmoidMass_column :
    shapeCast S2x4x64 (shapeCast S512 (extractStridedSlice S512x1 ![0, 0] (rowSigmoidMass (flat P)) slices_S512x128_S512x1_0_0)
        shapeCasts_S512x1_S512) shapeCasts_S512_S2x4x64 = Dice.sigmoidMass P := by
  funext j
  refine (column_apply _ j).trans ?_
  unfold rowSigmoidMass Dice.sigmoidMass
  refine Finset.sum_congr rfl fun k _ => ?_
  exact congrArg Ideal.logistic (flat_plane P j k)

theorem targetMass_column :
    shapeCast S2x4x64 (shapeCast S512 (extractStridedSlice S512x1 ![0, 0] (rowTargetMass (flat T)) slices_S512x128_S512x1_0_0)
        shapeCasts_S512x1_S512) shapeCasts_S512_S2x4x64 = Dice.targetMass T := by
  funext j
  refine (column_apply _ j).trans ?_
  unfold rowTargetMass Dice.targetMass
  exact Finset.sum_congr rfl fun k _ => flat_plane T j k

theorem firstEntry_column :
    shapeCast S2x4x64 (shapeCast S512 (extractStridedSlice S512x1 ![0, 0] (rowFirstEntry (flat T)) slices_S512x128_S512x1_0_0)
        shapeCasts_S512x1_S512) shapeCasts_S512_S2x4x64 = Dice.firstEntry T := by
  funext j
  refine (column_apply _ j).trans ?_
  exact flat_plane T j 0

end Cert.KernelIdeal.Columns

end
-- ==== Proof.KernelResult.lean ====
/-
  The kernel's result is the dice loss of its two arguments.

  Before the region the program flattens each slice's plane of both arguments into a row; the region leaves the four
  [512, 128] arrays of row quantities; after it the program reads lane 0 of each, regroups the rows by slice — which gives the
  four per-slice quantities of `Cert.Dice` — and then applies, operation for operation, `Dice.lossOf`.
-/
import proofs.«175234_j12704513262234_1_alg».proof.Proof.SliceColumns
import Idealize.ShloMosaic.Lib.StableHlo.Run

noncomputable section

namespace Cert.KernelIdeal.Result

open Cert.KernelIdeal Cert.KernelIdeal.Gen Cert.KernelIdeal.Arrays Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

local notation "flat" X => shapeCast S512x65536 X shapeCasts_S2x4x64x256x256_S512x65536

/-- The region finds `predict` with every plane flattened. -/
theorem entry_predict (c : Dev nD) :
    (V m c main_v0 : S512x65536.Idx → Elt Ideal .f32) = flat (m ((c : Thread nD τ).loc main_arg0)) := by
  show StableHlo.after hostOps0 (fun b => m (c, b)) (Proc.devRef .tc main_v0) = _
  after_results
  rfl

/-- The region finds `target` with every plane flattened. -/
theorem entry_target (c : Dev nD) :
    (V m c main_v1 : S512x65536.Idx → Elt Ideal .f32) = flat (m ((c : Thread nD τ).loc main_arg1)) := by
  show StableHlo.after hostOps0 (fun b => m (c, b)) (Proc.devRef .tc main_v1) = _
  after_results
  rfl

/-- What the lines after the region find in the four result arrays. -/
theorem result0 (c : Dev nD) :
    Pipeline.withArrays (cfgs 0).spec c (V0 m c) (fun w => (dats m 0 c).arrAt w (cfgs 0).N) (Proc.devRef .tc main_v2_0)
      = rowOverlap (flat (m ((c : Thread nD τ).loc main_arg0))) (flat (m ((c : Thread nD τ).loc main_arg1))) := by
  refine (Pipeline.withArrays_arr spec0 launch0.win.arr_inj c _ _ 2).trans ((final2 m c).trans ?_)
  rw [entry_predict, entry_target]

theorem result1 (c : Dev nD) :
    Pipeline.withArrays (cfgs 0).spec c (V0 m c) (fun w => (dats m 0 c).arrAt w (cfgs 0).N) (Proc.devRef .tc main_v2_1)
      = rowSigmoidMass (flat (m ((c : Thread nD τ).loc main_arg0))) := by
  refine (Pipeline.withArrays_arr spec0 launch0.win.arr_inj c _ _ 3).trans ((final3 m c).trans ?_)
  rw [entry_predict]

theorem result2 (c : Dev nD) :
    Pipeline.withArrays (cfgs 0).spec c (V0 m c) (fun w => (dats m 0 c).arrAt w (cfgs 0).N) (Proc.devRef .tc main_v2_2)
      = rowTargetMass (flat (m ((c : Thread nD τ).loc main_arg1))) := by
  refine (Pipeline.withArrays_arr spec0 launch0.win.arr_inj c _ _ 4).trans ((final4 m c).trans ?_)
  rw [entry_target]

theorem result3 (c : Dev nD) :
    Pipeline.withArrays (cfgs 0).spec c (V0 m c) (fun w => (dats m 0 c).arrAt w (cfgs 0).N) (Proc.devRef .tc main_v2_3)
      = rowFirstEntry (flat (m ((c : Thread nD τ).loc main_arg1))) := by
  refine (Pipeline.withArrays_arr spec0 launch0.win.arr_inj c _ _ 5).trans ((final5 m c).trans ?_)
  rw [entry_target]

/-- Lane 0 of a [512, 128] array regrouped by slice, as the lines after the region compute it. -/
abbrev bySlice (A : FVec Ideal S512x128 .f32) : FVec Ideal S2x4x64 .f32 :=
  shapeCast S2x4x64 (shapeCast S512 (extractStridedSlice S512x1 ![0, 0] A slices_S512x128_S512x1_0_0) shapeCasts_S512x1_S512)
    shapeCasts_S512_S2x4x64

set_option maxHeartbeats 4000000 in
/-- The value the lines after the region leave in the program's result. -/
theorem tail_result (c : Dev nD) :
    Pipeline.afterTail₀ cfgs (dats m) 0 (V0 m) [hostOps1] c main_v31
      = Dice.loss (m ((c : Thread nD τ).loc main_arg0)) (m ((c : Thread nD τ).loc main_arg1)) := by
  unfold Pipeline.afterTail₀
  show StableHlo.after hostOps1 _ (Proc.devRef .tc main_v31) = _
  after_results
  rw [result0 m c, result1 m c, result2 m c, result3 m c]
  show Dice.lossOf
      (bySlice (rowOverlap (flat (m ((c : Thread nD τ).loc main_arg0))) (flat (m ((c : Thread nD τ).loc main_arg1)))))
      (bySlice (rowSigmoidMass (flat (m ((c : Thread nD τ).loc main_arg0)))))
      (bySlice (rowTargetMass (flat (m ((c : Thread nD τ).loc main_arg1)))))
      (bySlice (rowFirstEntry (flat (m ((c : Thread nD τ).loc main_arg1))))) = _
  unfold bySlice
  rw [Columns.overlap_column, Columns.sigmoidMass_column, Columns.targetMass_column, Columns.firstEntry_column]
  rfl

/-- The kernel's run, read: it ends with the dice loss of its arguments in its result, the arguments unchanged. -/
theorem run : θ_run defs (onTc (τ := τ) (main (F := Ideal))) ⟨m, fun _ => 0, ρ⟩ fun r => ∀ c : Dev nD,
      r.2.mem ((c : Thread nD τ).loc main_v31) = Dice.loss (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v31 (Pipeline.mem_restRefs_of main_v31 (by decide) (by decide))).trans (tail_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result

end
-- ==== Proof.ReferenceSums.lean ====
/-
  The reference's four per-slice quantities are the ones of `Cert.Dice`.

  The reference flattens each 256 × 256 plane of both arguments into a row of 65536 entries — entry `(j, k)` of the
  flattened array is the argument's entry at row-major position `slice j · 65536 + k`, that is `Dice.planeIdx j k` — and
  spells the logistic function out as `1 / (1 + exp (−x))`, which over the extended reals is `Ideal.logistic` itself. Each
  of its sums starts from the constant 0.
-/
import proofs.«175234_j12704513262234_1_alg».proof.Proof.Gen.ReferenceIdeal.Read
import proofs.«175234_j12704513262234_1_alg».proof.Proof.Dice
import Idealize.ShloMosaic.Lib.IdealHost

noncomputable section

namespace Cert.ReferenceIdeal.Sums

open Cert.ReferenceIdeal Cert.ReferenceIdeal.Read Idealize.ShloMosaic Idealize.ShloMosaic.ValueIdx Cert.Dice

/-- Entry `k` of slice `j`'s flattened plane is the argument's entry `planeIdx j k`. -/
theorem plane_of_flat (j : S2x4x64.Idx) (k : Fin 65536) : idx_main_v6 (idx_main_v9 j k) = planeIdx j k := by
  have h0 : (j 0).val < 2 := (j 0).isLt
  have h1 : (j 1).val < 4 := (j 1).isLt
  have h2 : (j 2).val < 64 := (j 2).isLt
  have hk : k.val < 65536 := k.isLt
  funext a
  apply Fin.ext
  match a with
  | ⟨0, _⟩ => show ((((j 0).val * 4 + (j 1).val) * 64 + (j 2).val) * 65536 + k.val) / 16777216 = (j 0).val; omega
  | ⟨1, _⟩ => show ((((j 0).val * 4 + (j 1).val) * 64 + (j 2).val) * 65536 + k.val) / 4194304 % 4 = (j 1).val; omega
  | ⟨2, _⟩ => show ((((j 0).val * 4 + (j 1).val) * 64 + (j 2).val) * 65536 + k.val) / 65536 % 64 = (j 2).val; omega
  | ⟨3, _⟩ => show ((((j 0).val * 4 + (j 1).val) * 64 + (j 2).val) * 65536 + k.val) / 256 % 256 = k.val / 256; omega
  | ⟨4, _⟩ => show ((((j 0).val * 4 + (j 1).val) * 64 + (j 2).val) * 65536 + k.val) % 256 = k.val % 256; omega

/-- The flattened `σ(predict)` at `(j, k)`. -/
theorem sigmoid_flat (x0 : FVec Ideal S2x4x64x256x256 .f32) (j : S2x4x64.Idx) (k : Fin 65536) :
    val_main_v6 (F := Ideal) x0 (idx_main_v9 j k) = Ideal.logistic (x0 (planeIdx j k)) := by
  rw [val_main_v6_apply, plane_of_flat, val_main_v5_apply, val_main_v4_apply, val_main_cst_0_apply, val_main_v3_apply,
    val_main_v2_apply, val_main_cst_apply, val_main_v1_apply, val_main_v0_apply]
  simp only [Ideal.ofBits_def, Ideal.ofBits_one_f32]
  rfl

/-- The flattened `target` at `(j, k)`. -/
theorem target_flat (x1 : FVec Ideal S2x4x64x256x256 .f32) (j : S2x4x64.Idx) (k : Fin 65536) :
    val_main_v7 (F := Ideal) x1 (idx_main_v9 j k) = x1 (planeIdx j k) := by
  rw [val_main_v7_apply]
  exact congrArg x1 (plane_of_flat j k)

/-- `∑ σ(predict) · target` per slice. -/
theorem overlap_eq (x0 x1 : FVec Ideal S2x4x64x256x256 .f32) : val_main_v9 (F := Ideal) x0 x1 = overlap x0 x1 := by
  funext j
  rw [val_main_v9_apply, val_main_cst_1_apply]
  simp only [Ideal.ofBits_def, Ideal.ofBits_zero_f32, zero_add]
  refine Finset.sum_congr rfl fun k _ => ?_
  rw [val_main_v8_apply, sigmoid_flat, target_flat]
  rfl

/-- `∑ σ(predict)` per slice. -/
theorem sigmoidMass_eq (x0 : FVec Ideal S2x4x64x256x256 .f32) : val_main_v10 (F := Ideal) x0 = sigmoidMass x0 := by
  funext j
  rw [val_main_v10_apply, val_main_cst_2_apply]
  simp only [Ideal.ofBits_def, Ideal.ofBits_zero_f32, zero_add]
  exact Finset.sum_congr rfl fun k _ => sigmoid_flat x0 j k

/-- `∑ target` per slice. -/
theorem targetMass_eq (x1 : FVec Ideal S2x4x64x256x256 .f32) : val_main_v11 (F := Ideal) x1 = targetMass x1 := by
  funext j
  rw [val_main_v11_apply, val_main_cst_3_apply]
  simp only [Ideal.ofBits_def, Ideal.ofBits_zero_f32, zero_add]
  exact Finset.sum_congr rfl fun k _ => target_flat x1 j k

/-- The first `target` entry of each slice's plane. -/
theorem firstEntry_eq (x1 : FVec Ideal S2x4x64x256x256 .f32) : val_main_v21 (F := Ideal) x1 = firstEntry x1 := by
  funext j
  have h0 : (j 0).val < 2 := (j 0).isLt
  have h1 : (j 1).val < 4 := (j 1).isLt
  have h2 : (j 2).val < 64 := (j 2).isLt
  rw [val_main_v21_apply, val_main_v20_apply]
  have e : idx_main_v20 (idx_main_v21 j) = idx_main_v9 j (0 : Fin 65536) := by
    funext a
    apply Fin.ext
    match a with
    | ⟨0, _⟩ => show (((j 0).val * 4 + (j 1).val) * 64 + (j 2).val) / 256 = (j 0).val; omega
    | ⟨1, _⟩ => show (((j 0).val * 4 + (j 1).val) * 64 + (j 2).val) / 64 % 4 = (j 1).val; omega
    | ⟨2, _⟩ => show (((j 0).val * 4 + (j 1).val) * 64 + (j 2).val) / 1 % 64 = (j 2).val; omega
    | ⟨3, _⟩ => rfl
  rw [e]
  exact target_flat x1 j 0

/-- The reference's result is the dice loss of its two arguments: past the four per-slice quantities its operations are,
    one for one, those of `Dice.lossOf`. -/
theorem loss_eq (x0 x1 : FVec Ideal S2x4x64x256x256 .f32) : val_main_v30 (F := Ideal) x0 x1 = Dice.loss x0 x1 := by
  unfold Dice.loss
  rw [← overlap_eq x0 x1, ← sigmoidMass_eq x0, ← targetMass_eq x1, ← firstEntry_eq x1]
  rfl

end Cert.ReferenceIdeal.Sums

end
-- ==== Proof.lean ====
/-
  The dice loss over [2, 4, 64, 256, 256] volumes: the kernel against its jnp reference, over the extended reals.

  Both programs compute, for each of the 512 (batch, organ, depth) slices, four numbers from the slice's 256 × 256 plane —
  `∑ σ(predict) · target`, `∑ σ(predict)`, `∑ target` and the plane's first `target` entry, `σ` the logistic function — and
  from them the loss `Dice.lossOf`: `1 − 2 · overlap / (sigmoidMass + targetMass + 1)` per slice, averaged over the slices of a
  (batch, organ) pair whose first `target` entry is not −1, then averaged over the eight pairs (`Proof/Dice.lean`).

  The kernel flattens every plane into a row of a [512, 65536] array and sweeps 16 blocks of 32 rows; a grid step sums each
  row's lanes three ways and spreads the sums, and the row's first `target` entry, over the 128 lanes of [32, 128] result
  blocks (`Proof/Rows.lean`); the blocks tile the four [512, 128] results (`Proof/RowArrays.lean`); lane 0 of each, regrouped
  by slice, is the per-slice quantity (`Proof/SliceColumns.lean`), and the operations that follow are `Dice.lossOf`
  (`Proof/KernelResult.lean`). The reference flattens the planes to [2, 4, 64, 65536], spells `σ` as `1 / (1 + exp (−x))` —
  the logistic function itself on the extended reals — and sums along the last axis from 0 (`Proof/ReferenceSums.lean`).
  Both sums run over the same 65536 entries in the same order, so no law of arithmetic is needed and the precondition is not
  used: the two results are one term of the arguments.
-/
import proofs.«175234_j12704513262234_1_alg».proof.Defs
import proofs.«175234_j12704513262234_1_alg».proof.Proof.Gen.Kernel
import proofs.«175234_j12704513262234_1_alg».proof.Proof.Gen.Kernel.Skeleton
import proofs.«175234_j12704513262234_1_alg».proof.Proof.Gen.Kernel.Launch
import proofs.«175234_j12704513262234_1_alg».proof.Proof.Gen.Kernel.Points
import proofs.«175234_j12704513262234_1_alg».proof.Proof.Gen.Kernel.Frame
import proofs.«175234_j12704513262234_1_alg».proof.Proof.Gen.KernelIdeal
import proofs.«175234_j12704513262234_1_alg».proof.Proof.Gen.KernelIdeal.Skeleton
import proofs.«175234_j12704513262234_1_alg».proof.Proof.Gen.KernelIdeal.Launch
import proofs.«175234_j12704513262234_1_alg».proof.Proof.Gen.KernelIdeal.Points
import proofs.«175234_j12704513262234_1_alg».proof.Proof.Gen.KernelIdeal.Frame
import proofs.«175234_j12704513262234_1_alg».proof.Proof.Gen.ReferenceIdeal
import proofs.«175234_j12704513262234_1_alg».proof.Proof.Gen.Pre_finite_inputs
import proofs.«175234_j12704513262234_1_alg».proof.Proof.Gen.ReferenceIdeal.Run
import proofs.«175234_j12704513262234_1_alg».proof.Proof.Gen.ReferenceIdeal.Read
import proofs.«175234_j12704513262234_1_alg».proof.Proof.KernelResult
import proofs.«175234_j12704513262234_1_alg».proof.Proof.ReferenceSums
import Idealize.ShloMosaic.Adequacy
import Idealize.ShloMosaic.Init

noncomputable section

namespace Cert.Proof

open Idealize.ShloMosaic Idealize.SL.Sem

/-- The word-level kernel runs and leaves its arguments as they were (the generated frame). -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree both programs end with `Dice.loss` of them. -/
theorem algebraic : Cert.algebraic_KernelIdeal_ReferenceIdeal := by
  intro m ρ m' ρ' _ hagree
  refine ⟨fun c => Cert.Dice.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v30_eq _ _).trans (Cert.ReferenceIdeal.Sums.loss_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
